-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S20x2048 : Shape := ⟨2, ![20, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S20x2048 : S_.BroadcastsInDim S20x2048 (![] : Fin 0 → Fin S20x2048.rank)
  reducesTo_S20x2048_S_d0_1 : S20x2048.ReducesTo [0, 1] S_

variable [Facts]

def fn {F : FTy → Type} [FloatOps F] (main_arg0 : FVec F S32768x2048 .f32) (main_arg1 : FVec F S20x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S20x2048 .f32 := Host.absf main_arg1
  let main_cst_0 : FVec F S_ .f32 := constant S_ .f32 0x7F800000#32
  let main_v5 : FVec F S20x2048 .f32 := broadcastInDim S20x2048 ![] bcast_S_S20x2048 main_cst_0
  let main_v6 : IVec S20x2048 1 := cmpf .olt main_v4 main_v5
  let main_c_1 : IVec S_ 1 := constantI S_ 1 1#1
  let main_v7 : IVec S_ 1 := (fun x v => Host.reduce IntOp.andi x v reducesTo_S20x2048_S_d0_1 h_S_) main_v6 main_c_1
  let main_v8 : IVec S_ 1 := andi main_v3 main_v7
  main_v8
-- ==== Kernel.lean ====
abbrev S32768x2048 : Shape := ⟨2, ![32768, 2048]⟩
abbrev S20x2048 : Shape := ⟨2, ![20, 2048]⟩
abbrev S512x2048 : Shape := ⟨2, ![512, 2048]⟩
abbrev S512x20 : Shape := ⟨2, ![512, 20]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S20x2048, .f32⟩
  | .hbm, ⟨2, _⟩ => ⟨S20x2048, .bf16⟩
  | .hbm, ⟨3, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S20x2048, .bf16⟩
  | .local _ .vmem, ⟨3, _⟩ => ⟨S512x2048, .f32⟩
  | .local _ .vmem, ⟨4, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S20x2048_S20x2048_0_0 : ∀ a, (![0, 0] : Fin 2 → Nat) a + S20x2048.size a ≤ S20x2048.size a
  h_S20x2048 : 0 < S20x2048.numel
  shapeCasts_S20x2048_S20x2048 : S20x2048.ShapeCasts S20x2048
  reduces_S512x20_S512 : S512x20.Reduces [1] S512
  shapeCasts_S512_S512x1 : S512.ShapeCasts S512x1
  broadcasts_S512x1_S512x20 : S512x1.Broadcasts S512x20
  dot_S512x2048_S20x2048_S512x20_1_1_0_0_n_n_wf : DotDims.WF S512x2048 S20x2048 S512x20 [1] [1] [0] [0] [] []
  dot_S512x20_S20x2048_S512x2048_1_0_0_1_n_n_wf : DotDims.WF S512x20 S20x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x2048.size a ≤ S20x2048.size a
  hwx0_1 : ∀ i : grid0.Coords, EltTy.bits .bf16 = 32 ∨ (Rect.block (s := S20x2048) S20x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S32768x2048.size a
  hwx0_2 : ∀ i : grid0.Coords, EltTy.bits .f32 = 32 ∨ (Rect.block (s := S32768x2048) S512x2048.size (cc0_transform_2 i) (hinb0_2 i)).WholeWords (EltTy.packing .f32)

variable [Facts₀]

def dot_S512x2048_S20x2048_S512x20_1_1_0_0_n_n : DotDims S512x2048 S20x2048 S512x20 where
  lhsContracting := [1]
  rhsContracting := [1]
  lhsNonContracting := [0]
  rhsNonContracting := [0]
  lhsBatch := []
  rhsBatch := []
  wf := dot_S512x2048_S20x2048_S512x20_1_1_0_0_n_n_wf
def dot_S512x20_S20x2048_S512x2048_1_0_0_1_n_n : DotDims S512x20 S20x2048 S512x2048 where
  lhsContracting := [1]
  rhsContracting := [0]
  lhsNonContracting := [0]
  rhsNonContracting := [1]
  lhsBatch := []
  rhsBatch := []
  wf := dot_S512x20_S20x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S20x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S20x2048 : Shape := ⟨2, ![20, 2048]⟩
abbrev S2048x20 : Shape := ⟨2, ![2048, 20]⟩
abbrev S32768x20 : Shape := ⟨2, ![32768, 20]⟩
abbrev S_ : Shape := ⟨0, ![]⟩
abbrev S32768 : Shape := ⟨1, ![32768]⟩
abbrev S32768x1 : Shape := ⟨2, ![32768, 1]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S20x2048, .f32⟩
  | .hbm, ⟨2, _⟩ => ⟨S2048x20, .f32⟩
  | .hbm, ⟨3, _⟩ => ⟨S32768x20, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768x1, .f32⟩
  | .hbm, ⟨10, _⟩ => ⟨S32768x20, .f32⟩
  | .hbm, ⟨11, _⟩ => ⟨S32768x20, .f32⟩
  | .hbm, ⟨12, _⟩ => ⟨S32768x20, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S32768x20, .f32⟩
  | .hbm, ⟨17, _⟩ => ⟨S32768x20, .f32⟩
  | .hbm, ⟨18, _⟩ => ⟨S_, .f32⟩
  | .hbm, ⟨19, _⟩ => ⟨S32768x20, .f32⟩
  | .hbm, ⟨20, _⟩ => ⟨S32768x20, .i1⟩
  | .hbm, ⟨21, _⟩ => ⟨S_, .f32⟩
  | .hbm, ⟨22, _⟩ => ⟨S32768x20, .f32⟩
  | .hbm, ⟨23, _⟩ => ⟨S32768x20, .f32⟩
  | .hbm, ⟨24, _⟩ => ⟨S_, .f32⟩
  | .hbm, ⟨25, _⟩ => ⟨S32768x20, .f32⟩
  | .hbm, ⟨26, _⟩ => ⟨S32768x20, .i1⟩
  | .hbm, ⟨27, _⟩ => ⟨S_, .f32⟩
  | .hbm, ⟨28, _⟩ => ⟨S32768x20, .f32⟩
  | .hbm, ⟨29, _⟩ => ⟨S32768x20, .f32⟩
  | .hbm, ⟨30, _⟩ => ⟨S_, .f32⟩
  | .hbm, ⟨31, _⟩ => ⟨S32768x20, .f32⟩
  | .hbm, ⟨32, _⟩ => ⟨S32768x20, .f32⟩
  | .hbm, ⟨33, _⟩ => ⟨S32768x20, .f32⟩
  | .hbm, ⟨34, _⟩ => ⟨S_, .f32⟩
  | .hbm, ⟨35, _⟩ => ⟨S32768, .f32⟩
  | .hbm, ⟨36, _⟩ => ⟨S_, .f32⟩
  | .hbm, ⟨37, _⟩ => ⟨S32768, .f32⟩
  | .hbm, ⟨38, _⟩ => ⟨S32768, .f32⟩
  | .hbm, ⟨39, _⟩ => ⟨S32768x1, .f32⟩
  | .hbm, ⟨40, _⟩ => ⟨S32768x20, .f32⟩
  | .hbm, ⟨41, _⟩ => ⟨S32768x20, .f32⟩
  | .hbm, ⟨42, _⟩ => ⟨S32768x20, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S32768x20, .f32⟩
  | .hbm, ⟨47, _⟩ => ⟨S32768x20, .f32⟩
  | .hbm, ⟨48, _⟩ => ⟨S32768x2048, .f32⟩
  | .hbm, ⟨49, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  transposes_S20x2048_S2048x20_1_0 : S20x2048.Transposes [1, 0] S2048x20
  reducesTo_S32768x20_S32768_d1 : S32768x20.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x20_0_1 : S32768x1.BroadcastsInDim S32768x20 (![0, 1] : Fin 2 → Fin S32768x20.rank)
  bcast_S_S32768x20 : S_.BroadcastsInDim S32768x20 (![] : Fin 0 → Fin S32768x20.rank)
  dot_S32768x2048_S2048x20_S32768x20_1_0_0_1_n_n_wf : DotDims.WF S32768x2048 S2048x20 S32768x20 [1] [0] [0] [1] [] []
  dot_S32768x20_S20x2048_S32768x2048_1_0_0_1_n_n_wf : DotDims.WF S32768x20 S20x2048 S32768x2048 [1] [0] [0] [1] [] []

variable [Facts₀]

def dot_S32768x2048_S2048x20_S32768x20_1_0_0_1_n_n : DotDims S32768x2048 S2048x20 S32768x20 where
  lhsContracting := [1]
  rhsContracting := [0]
  lhsNonContracting := [0]
  rhsNonContracting := [1]
  lhsBatch := []
  rhsBatch := []
  wf := dot_S32768x2048_S2048x20_S32768x20_1_0_0_1_n_n_wf
def dot_S32768x20_S20x2048_S32768x2048_1_0_0_1_n_n : DotDims S32768x20 S20x2048 S32768x2048 where
  lhsContracting := [1]
  rhsContracting := [0]
  lhsNonContracting := [0]
  rhsNonContracting := [1]
  lhsBatch := []
  rhsBatch := []
  wf := dot_S32768x20_S20x2048_S32768x2048_1_0_0_1_n_n_wf

class Facts : Prop extends Facts₀ where

variable [Facts]
-- ==== Proof.RowSpec.lean ====
/-
  The memory unit, one row at a time, on the extended reals.

  For a row `xr` of the input (2048 features) and the bank `B` (20 slots of 2048 features) the output row is

      tanh ( Σ_j  a₂ j · B j c ),      a₂ = softmax (shrink (softmax (logits))),     logits j = Σ_k xr k · B j k,

  where the softmax of a 20-vector `v` is taken the stable way, `exp (v j − M) / Σ_k exp (v k − M)` with `M` the
  row's maximum (the fold of `max` from −∞), and `shrink` is the soft threshold at λ = f32(0.0025) on a value
  that is never negative. The two programs differ in one place only, how they spell that threshold: as
  `max (a − λ) 0` (`shrinkMax`), or as the three-way choice "a − λ above λ, a + λ below −λ, else 0" (`shrinkSel`).
  Everything here is generic in that spelling; RowMath.lean shows the two agree on a softmax of finite logits.
-/
import Idealize.ShloMosaic.PureOps.Ideal
import Idealize.ShloMosaic.PureOps.Ideal.Laws
import Idealize.ShloMosaic.Lib.ValueIdx

noncomputable section

open scoped BigOperators

namespace Cert.MemUnit

open Idealize.ShloMosaic Idealize.ShloMosaic.ValueIdx

/-- The input array's index set, the bank's, and the result's (the input's). -/
abbrev XIdx : Type := (⟨2, ![32768, 2048]⟩ : Shape).Idx
abbrev BIdx : Type := (⟨2, ![20, 2048]⟩ : Shape).Idx

/-- A row's maximum: the fold of `max` over its 20 entries from −∞. -/
def rowMax (v : Fin 20 → EReal) : EReal := (Finset.univ : Finset (Fin 20)).fold max ⊥ v

/-- The stable softmax of a 20-vector on the extended reals: each entry's `exp` of its distance below the row's
    maximum, over the sum of those. -/
def smax (v : Fin 20 → EReal) (j : Fin 20) : EReal :=
  Ideal.div (Ideal.exp (v j - rowMax v)) (∑ k : Fin 20, Ideal.exp (v k - rowMax v))

/-- The threshold λ, the f32 nearest 0.0025, and the f32 nearest −0.0025 (the same word with the sign bit set). -/
def lam : EReal := Ideal.ofBits .f32 0x3B23D70A#32
def nlam : EReal := Ideal.ofBits .f32 0xBB23D70A#32

/-- The soft threshold of a non-negative value as one maximum. -/
def shrinkMax (a : EReal) : EReal := max (a - lam) 0

/-- The soft threshold as the three-way choice: `a − λ` above `λ`, `a + λ` below `−λ`, zero between. -/
def shrinkSel (a : EReal) : EReal :=
  Scalar.select (Ideal.cmp .ogt a lam) (a - lam) (Scalar.select (Ideal.cmp .olt a nlam) (a + lam) 0)

/-- A row's 20 logits: its inner products with the bank's slots. -/
def logits (xr : Fin 2048 → EReal) (B : Fin 20 → Fin 2048 → EReal) (j : Fin 20) : EReal :=
  ∑ k : Fin 2048, xr k * B j k

/-- The attention weights after the threshold and the second softmax. -/
def att (sh : EReal → EReal) (xr : Fin 2048 → EReal) (B : Fin 20 → Fin 2048 → EReal) : Fin 20 → EReal :=
  smax fun j => sh (smax (logits xr B) j)

/-- One entry of the output row: `tanh` of the weights' mix of the bank's column `c`. -/
def rowOut (sh : EReal → EReal) (xr : Fin 2048 → EReal) (B : Fin 20 → Fin 2048 → EReal) (c : Fin 2048) : EReal :=
  Ideal.tanh (∑ j : Fin 20, att sh xr B j * B j c)

/-- The whole result as one function of the two argument arrays, index by index: entry (r, c) is the row function of
    row `r` of `x` and the whole bank, at column `c`. -/
def G (sh : EReal → EReal) (x : XIdx → EReal) (bank : BIdx → EReal) : XIdx → EReal := fun i =>
  rowOut sh (fun k => x (ix2 (⟨(i 0).val, idx2_lt0 i⟩ : Fin 32768) k)) (fun j k => bank (ix2 j k))
    (⟨(i 1).val, idx2_lt1 i⟩ : Fin 2048)

end Cert.MemUnit

end
-- ==== Proof.RowMath.lean ====
/-
  The two spellings of the soft threshold agree on a softmax of finite logits.
-/
import proofs.«151482_j57990648430879_2_alg».proof.Proof.RowSpec

noncomputable section

open scoped BigOperators

namespace Cert.MemUnit

open Idealize.ShloMosaic Idealize.ShloMosaic.ValueIdx

/-- The threshold's real value, 10737418 · 2⁻³² (the f32 nearest 0.0025). -/
def lamR : ℝ := 10737418 * (2 : ℝ) ^ (-32 : Int)

/-- The threshold's real value is positive. -/
theorem lamR_pos : 0 < lamR := by unfold lamR; positivity

/-- The word of λ denotes the real number `lamR`. -/
theorem lam_eq : lam = ((lamR : ℝ) : EReal) := by
  simp [lam, lamR, Ideal.ofBits, Ideal.ieee, -EReal.coe_mul]

/-- The word of −λ denotes the real number `−lamR`. -/
theorem nlam_eq : nlam = ((-lamR : ℝ) : EReal) := by
  simp [nlam, lamR, Ideal.ofBits, Ideal.ieee, -EReal.coe_mul]

/-- On a value that is not negative the three-way threshold is the threshold as one maximum. -/
theorem shrink_eq (a : EReal) (ha : 0 ≤ a) : shrinkSel a = shrinkMax a := by
  unfold shrinkSel shrinkMax
  rw [lam_eq, nlam_eq]
  have hr := lamR_pos
  induction a using EReal.rec with
  | bot => exact absurd ha (by simp)
  | top => simp [Ideal.cmp, Scalar.select, EReal.top_sub_coe]
  | coe t =>
    have ht : 0 ≤ t := by exact_mod_cast ha
    by_cases h : lamR < t
    · have h1 : ((lamR : ℝ) : EReal) < (t : EReal) := by exact_mod_cast h
      have h2 : (0 : EReal) ≤ (t : EReal) - ((lamR : ℝ) : EReal) := by
        rw [← EReal.coe_sub]; exact_mod_cast (sub_nonneg.mpr h.le)
      simp [Ideal.cmp, Scalar.select, h1, max_eq_left h2]
    · have h1 : ¬ ((lamR : ℝ) : EReal) < (t : EReal) := by exact_mod_cast h
      have h2 : (t : EReal) - ((lamR : ℝ) : EReal) ≤ 0 := by
        rw [← EReal.coe_sub]; exact_mod_cast (sub_nonpos.mpr (not_lt.mp h))
      have h3 : ¬ (t : EReal) < -((lamR : ℝ) : EReal) := by
        rw [← EReal.coe_neg, EReal.coe_lt_coe_iff]; linarith
      simp [Ideal.cmp, Scalar.select, h1, h3, max_eq_right h2]

/-- The exponential on the extended reals is never negative. -/
theorem exp_nonneg' (x : EReal) : 0 ≤ Ideal.exp x := by
  induction x using EReal.rec with
  | bot => show (0 : EReal) ≤ 0; exact le_refl _
  | top => show (0 : EReal) ≤ ⊤; exact le_top
  | coe t =>
    show (0 : EReal) ≤ ((Real.exp t : ℝ) : EReal)
    exact_mod_cast (Real.exp_pos t).le

/-- The exponential on the extended reals is positive away from −∞. -/
theorem exp_pos' (x : EReal) (hx : x ≠ ⊥) : 0 < Ideal.exp x := by
  induction x using EReal.rec with
  | bot => exact absurd rfl hx
  | top => show (0 : EReal) < ⊤; exact EReal.zero_lt_top
  | coe t =>
    show (0 : EReal) < ((Real.exp t : ℝ) : EReal)
    exact_mod_cast Real.exp_pos t

/-- The maximum of a row with no entry +∞ is not +∞. -/
theorem rowMax_ne_top (v : Fin 20 → EReal) (hv : ∀ j, v j ≠ ⊤) : rowMax v ≠ ⊤ := by
  have h : rowMax v < ⊤ := by
    unfold rowMax
    rw [Finset.fold_max_lt]
    exact ⟨bot_lt_top, fun j _ => lt_top_iff_ne_top.mpr (hv j)⟩
  exact h.ne

/-- A difference is not −∞ when its first term is not −∞ and its second is not +∞. -/
theorem sub_ne_bot' (a M : EReal) (ha : a ≠ ⊥) (hM : M ≠ ⊤) : a - M ≠ ⊥ := by
  rw [sub_eq_add_neg, EReal.add_ne_bot_iff]
  exact ⟨ha, by simpa [EReal.neg_eq_bot_iff] using hM⟩

/-- Every entry of the softmax of a row of real numbers is non-negative. -/
theorem smax_nonneg (v : Fin 20 → EReal) (hv : ∀ j, v j ≠ ⊥ ∧ v j ≠ ⊤) (j : Fin 20) : 0 ≤ smax v j := by
  unfold smax
  have hM := rowMax_ne_top v (fun j => (hv j).2)
  have hpos : 0 < ∑ k : Fin 20, Ideal.exp (v k - rowMax v) := by
    have h1 : 0 < Ideal.exp (v j - rowMax v) := exp_pos' _ (sub_ne_bot' _ _ (hv j).1 hM)
    have h2 : Ideal.exp (v j - rowMax v) ≤ ∑ k : Fin 20, Ideal.exp (v k - rowMax v) :=
      Finset.single_le_sum (f := fun k => Ideal.exp (v k - rowMax v)) (fun k _ => exp_nonneg' _)
        (Finset.mem_univ j)
    exact lt_of_lt_of_le h1 h2
  unfold Ideal.div
  rw [if_neg hpos.ne']
  exact mul_nonneg (exp_nonneg' _) (EReal.inv_nonneg_of_nonneg hpos.le)

/-- A finite sum of real numbers (extended reals that are neither infinity) is a real number. -/
theorem sum_finite {ι : Type} (s : Finset ι) (f : ι → EReal) (hf : ∀ i ∈ s, f i ≠ ⊥ ∧ f i ≠ ⊤) :
    ∑ i ∈ s, f i ≠ ⊥ ∧ ∑ i ∈ s, f i ≠ ⊤ := by
  classical
  induction s using Finset.induction_on with
  | empty => simp
  | insert a s ha ih =>
    rw [Finset.sum_insert ha]
    have h1 := hf a (Finset.mem_insert_self a s)
    have h2 := ih (fun i hi => hf i (Finset.mem_insert_of_mem hi))
    exact ⟨EReal.add_ne_bot_iff.mpr ⟨h1.1, h2.1⟩, EReal.add_ne_top h1.2 h2.2⟩

/-- A product of two real numbers is a real number. -/
theorem mul_finite (a b : EReal) (ha : a ≠ ⊥ ∧ a ≠ ⊤) (hb : b ≠ ⊥ ∧ b ≠ ⊤) : a * b ≠ ⊥ ∧ a * b ≠ ⊤ := by
  lift a to ℝ using ⟨ha.2, ha.1⟩
  lift b to ℝ using ⟨hb.2, hb.1⟩
  rw [← EReal.coe_mul]
  exact ⟨EReal.coe_ne_bot _, EReal.coe_ne_top _⟩

/-- The logits of a real row against a real bank are real numbers. -/
theorem logits_finite (xr : Fin 2048 → EReal) (B : Fin 20 → Fin 2048 → EReal)
    (hxr : ∀ k, xr k ≠ ⊥ ∧ xr k ≠ ⊤) (hB : ∀ j k, B j k ≠ ⊥ ∧ B j k ≠ ⊤) (j : Fin 20) :
    logits xr B j ≠ ⊥ ∧ logits xr B j ≠ ⊤ :=
  sum_finite _ _ (fun k _ => mul_finite _ _ (hxr k) (hB j k))

/-- On a real row and a real bank the output row does not depend on the threshold's spelling. -/
theorem rowOut_shrink (xr : Fin 2048 → EReal) (B : Fin 20 → Fin 2048 → EReal)
    (hxr : ∀ k, xr k ≠ ⊥ ∧ xr k ≠ ⊤) (hB : ∀ j k, B j k ≠ ⊥ ∧ B j k ≠ ⊤) (c : Fin 2048) :
    rowOut shrinkSel xr B c = rowOut shrinkMax xr B c := by
  have e : (fun j => shrinkSel (smax (logits xr B) j)) = fun j => shrinkMax (smax (logits xr B) j) := by
    funext j
    exact shrink_eq _ (smax_nonneg _ (logits_finite xr B hxr hB) j)
  unfold rowOut att
  rw [e]

/-- With every entry of the input and of the bank a real number, the result with the three-way threshold is the result
    with the threshold as one maximum. -/
theorem G_shrink (x : XIdx → EReal) (bank : BIdx → EReal)
    (hx : ∀ i, x i ≠ ⊥ ∧ x i ≠ ⊤) (hb : ∀ i, bank i ≠ ⊥ ∧ bank i ≠ ⊤) :
    G shrinkSel x bank = G shrinkMax x bank := by
  funext i
  unfold G
  exact rowOut_shrink _ _ (fun k => hx _) (fun j k => hb _) _

end Cert.MemUnit

end
-- ==== Proof.Finite.lean ====
/-
  The precondition read: every entry of both argument arrays is a real number.
-/
import proofs.«151482_j57990648430879_2_alg».proof.Pre_finite_inputs
import Idealize.ShloMosaic.Lib.ReduceAll
import Idealize.ShloMosaic.Lib.ValueIdx
import Idealize.ShloMosaic.PureOps.Ideal.Laws

noncomputable section

open scoped BigOperators

namespace Cert.Pre_finite_inputs.Finite

open Idealize.ShloMosaic Idealize.ShloMosaic.ValueIdx Cert.Pre_finite_inputs

/-- The f32 word 0x7F800000 denotes +∞. -/
theorem inf_bits : Ideal.ofBits .f32 0x7F800000#32 = (⊤ : EReal) := by
  simp [Ideal.ofBits, Ideal.ieee]

/-- An extended real whose absolute value max a (−a) compares below +∞ is neither infinity. -/
theorem real_of_abs_lt (a : EReal) (h : Ideal.cmp .olt (max a (-a)) (⊤ : EReal) = 1#1) : a ≠ ⊥ ∧ a ≠ ⊤ := by
  induction a using EReal.rec with
  | bot => simp [Ideal.cmp] at h
  | top => simp [Ideal.cmp] at h
  | coe r => exact ⟨EReal.coe_ne_bot r, EReal.coe_ne_top r⟩

/-- The rank-0 shape has one index. -/
theorem subsingleton_idx0 : Subsingleton S_.Idx := ⟨fun a b => funext fun d => d.elim0⟩

/-- An array whose entries' absolute values all compare below the broadcast +∞ word, as one reduce by `and` that came
    out 1, has no infinite entry. -/
theorem all_real {s : Shape} {axes : List (Fin s.rank)} (v : FVec Ideal s .f32) (dims : Fin S_.rank → Fin s.rank)
    (hb : S_.BroadcastsInDim s dims) (hr : s.ReducesTo axes S_) (hu : 0 < S_.numel) (init : IVec S_ 1)
    (e : Host.reduce IntOp.andi (cmpf .olt (Host.absf v) (broadcastInDim s dims hb (constant S_ .f32 0x7F800000#32)))
      init hr hu ix0 = 1#1) (i : s.Idx) : v i ≠ (⊥ : EReal) ∧ v i ≠ (⊤ : EReal) := by
  haveI := subsingleton_idx0
  have hi := Host.reduce_andi_all _ init hr hu ix0 e i
  rw [ValueIdx.cmpf_apply] at hi
  have hc : broadcastInDim s dims hb (constant (F := Ideal) S_ .f32 0x7F800000#32) i = (⊤ : EReal) := by
    show Ideal.ofBits .f32 0x7F800000#32 = _
    exact inf_bits
  rw [hc] at hi
  exact real_of_abs_lt (v i) hi

variable [Cert.Pre_finite_inputs.Facts]

/-- Where the printed predicate is all ones, no entry of either array is an infinity. -/
theorem real_of_pre (x : FVec Ideal S32768x2048 .f32) (b : FVec Ideal S20x2048 .f32)
    (h : Cert.Pre_finite_inputs.fn (F := Ideal) x b = fun _ => 1#1) :
    (∀ i, x i ≠ (⊥ : EReal) ∧ x i ≠ (⊤ : EReal)) ∧ (∀ i, b i ≠ (⊥ : EReal) ∧ b i ≠ (⊤ : EReal)) := by
  have h0 := congrFun h ValueIdx.ix0
  dsimp only [Cert.Pre_finite_inputs.fn] at h0
  obtain ⟨hx, hb⟩ := IntOp.andi_eq_one.1 h0
  exact ⟨fun i => all_real x _ _ _ _ _ hx i, fun i => all_real b _ _ _ _ _ hb i⟩

end Cert.Pre_finite_inputs.Finite

end
-- ==== Proof.KernelRow.lean ====
/-
  The kernel body's one store, read at an entry of the block: the row function of that row of the input block and the
  whole bank block.
-/
import proofs.«151482_j57990648430879_2_alg».proof.Proof.Gen.KernelIdeal.Skeleton
import proofs.«151482_j57990648430879_2_alg».proof.Proof.RowSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Idealize.ShloMosaic Idealize.ShloMosaic.ValueIdx Cert.KernelIdeal Cert.KernelIdeal.Gen

/-! ## The keepdims forms read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of row statistics, kept as a column and spread over the 20 entries of each row, reads at `(p, j)` the
    statistic of row `p`. -/
theorem keepdims_apply {α : Type} (w : S512.Idx → α) (hc : S512.ShapeCasts S512x1) (hb : S512x1.Broadcasts S512x20)
    (p : Fin 512) (j : Fin 20) :
    broadcastTo S512x20 (shapeCast S512x1 w hc) hb (ix2 p j) = w (ix1 p) :=
  (broadcastTo_a1_ab_apply _ hb p j).trans (shapeCast_a_a1_apply w hc p 0)

/-! ## The two row reductions read at a row -/

/-- The f32 word `0xFF800000` denotes −∞. -/
theorem ofBits_ninf : Ideal.ofBits .f32 0xFF800000#32 = ⊥ := by simp [Ideal.ofBits, Ideal.ieee]

/-- The sum of a `[512, 20]` vector over its second axis, at row `p`, is the sum of that row's 20 entries. -/
theorem rowSum_apply (v : FVec Ideal S512x20 .f32) (h : S512x20.Reduces [1] S512) (hφ : FKind.Formats .f32)
    (hacc : (0x00000000#32 : BitVec 32) = FKind.add.neutral .f32 hφ) (p : Fin 512) :
    multiReduction (F := Ideal) .add [1] S512 v 0x00000000#32 h hφ hacc (ix1 p) = ∑ k : Fin 20, v (ix2 p k) := by
  rw [Ideal.multiReduction_add_single]
  refine Finset.sum_congr rfl fun k _ => ?_
  exact congrArg v (funext fun a => Fin.ext (by match a with | ⟨0, _⟩ => rfl | ⟨1, _⟩ => rfl))

/-- The maximum of a `[512, 20]` vector over its second axis from −∞, at row `p`, is that row's maximum. -/
theorem rowMax_apply (v : FVec Ideal S512x20 .f32) (h : S512x20.Reduces [1] S512) (hφ : FKind.Formats .f32)
    (hacc : (0xFF800000#32 : BitVec 32) = FKind.maximumf.neutral .f32 hφ) (p : Fin 512) :
    multiReduction (F := Ideal) .maximumf [1] S512 v 0xFF800000#32 h hφ hacc (ix1 p)
      = Cert.MemUnit.rowMax fun k => v (ix2 p k) := by
  rw [Ideal.multiReduction_maximumf_single]
  have e : (v ∘ h.lift (ix1 p)) = fun k : Fin 20 => v (ix2 p k) := funext fun k =>
    congrArg v (funext fun a => Fin.ext (by match a with | ⟨0, _⟩ => rfl | ⟨1, _⟩ => rfl))
  show (Finset.univ : Finset (Fin 20)).fold max (Ideal.ofBits .f32 0xFF800000#32) (v ∘ h.lift (ix1 p)) = _
  rw [e, ofBits_ninf]
  rfl

/-! ## The six softmax lines of a `[512, 20]` vector, read at an entry -/

/-- A `[512, 20]` vector's row maxima (the fold from −∞, then the maximum with the −∞ splat), kept as a column and
    spread back over the rows. -/
def rowMaxB (v : FVec Ideal S512x20 .f32) : FVec Ideal S512x20 .f32 :=
  broadcastTo S512x20 (shapeCast S512x1
    (maximumf (broadcast S512 (Scalar.ofBits (F := Ideal) .f32 0xFF800000#32))
      (multiReduction (F := Ideal) .maximumf [1] S512 v 0xFF800000#32 reduces_S512x20_S512 (.inl rfl) rfl))
    shapeCasts_S512_S512x1) broadcasts_S512x1_S512x20

/-- At `(p, j)` it is the maximum of row `p`. -/
theorem rowMaxB_apply (v : FVec Ideal S512x20 .f32) (p : Fin 512) (j : Fin 20) :
    rowMaxB v (ix2 p j) = Cert.MemUnit.rowMax fun k => v (ix2 p k) := by
  unfold rowMaxB
  refine (keepdims_apply _ _ _ p j).trans ?_
  show max (Ideal.ofBits .f32 0xFF800000#32)
    (multiReduction (F := Ideal) .maximumf [1] S512 v 0xFF800000#32 reduces_S512x20_S512 (.inl rfl) rfl (ix1 p)) = _
  exact (congrArg₂ max ofBits_ninf (rowMax_apply v _ _ _ p)).trans (max_bot_left _)

/-- A `[512, 20]` vector's row sums, kept as a column and spread back over the rows. -/
def rowSumB (e : FVec Ideal S512x20 .f32) : FVec Ideal S512x20 .f32 :=
  broadcastTo S512x20 (shapeCast S512x1
    (multiReduction (F := Ideal) .add [1] S512 e 0x00000000#32 reduces_S512x20_S512 (.inl rfl) rfl)
    shapeCasts_S512_S512x1) broadcasts_S512x1_S512x20

/-- At `(p, j)` it is the sum of row `p`. -/
theorem rowSumB_apply (e : FVec Ideal S512x20 .f32) (p : Fin 512) (j : Fin 20) :
    rowSumB e (ix2 p j) = ∑ k : Fin 20, e (ix2 p k) := by
  unfold rowSumB
  exact (keepdims_apply _ _ _ p j).trans (rowSum_apply e _ _ _ p)

/-- The stable softmax along the rows of a `[512, 20]` vector, as the kernel spells it. -/
def smBlock (v : FVec Ideal S512x20 .f32) : FVec Ideal S512x20 .f32 :=
  divf (exp (subf v (rowMaxB v))) (rowSumB (exp (subf v (rowMaxB v))))

/-- At `(p, j)` it is entry `j` of the stable softmax of row `p`. -/
theorem smBlock_apply (v : FVec Ideal S512x20 .f32) (p : Fin 512) (j : Fin 20) :
    smBlock v (ix2 p j) = Cert.MemUnit.smax (fun j' => v (ix2 p j')) j := by
  show Ideal.div (Ideal.exp (v (ix2 p j) - rowMaxB v (ix2 p j))) (rowSumB (exp (subf v (rowMaxB v))) (ix2 p j)) = _
  rw [rowMaxB_apply, rowSumB_apply]
  unfold Cert.MemUnit.smax
  refine congrArg (Ideal.div _) (Finset.sum_congr rfl fun k _ => ?_)
  show Ideal.exp (v (ix2 p k) - rowMaxB v (ix2 p k)) = _
  rw [rowMaxB_apply]

/-! ## The two contractions read at an entry -/

/-- The first contraction's left operand index keeps the output's row on axis 0. -/
theorem lhs1_0 (i : S512x20.Idx) (q : dot_S512x2048_S20x2048_S512x20_1_1_0_0_n_n.contr.Idx) :
    (dot_S512x2048_S20x2048_S512x20_1_1_0_0_n_n.lhsIdx i q 0).val = (i 0).val := by
  unfold DotDims.lhsIdx
  rw [dif_neg (show ¬(0 : Fin S512x2048.rank) ∈ dot_S512x2048_S20x2048_S512x20_1_1_0_0_n_n.lhsBatch by decide), dif_pos (show (0 : Fin S512x2048.rank) ∈ dot_S512x2048_S20x2048_S512x20_1_1_0_0_n_n.lhsNonContracting by decide)]
  rfl
/-- The first contraction's left operand index has the contraction coordinate on axis 1. -/
theorem lhs1_1 (i : S512x20.Idx) (q : dot_S512x2048_S20x2048_S512x20_1_1_0_0_n_n.contr.Idx) :
    (dot_S512x2048_S20x2048_S512x20_1_1_0_0_n_n.lhsIdx i q 1).val = (q ⟨0, by decide⟩).val :=
  dot_S512x2048_S20x2048_S512x20_1_1_0_0_n_n.lhsIdx_val_of_single rfl i q
/-- The first contraction's right operand index keeps the output's column on axis 0. -/
theorem rhs1_0 (i : S512x20.Idx) (q : dot_S512x2048_S20x2048_S512x20_1_1_0_0_n_n.contr.Idx) :
    (dot_S512x2048_S20x2048_S512x20_1_1_0_0_n_n.rhsIdx i q 0).val = (i 1).val := by
  unfold DotDims.rhsIdx
  rw [dif_neg (show ¬(0 : Fin S20x2048.rank) ∈ dot_S512x2048_S20x2048_S512x20_1_1_0_0_n_n.rhsBatch by decide), dif_pos (show (0 : Fin S20x2048.rank) ∈ dot_S512x2048_S20x2048_S512x20_1_1_0_0_n_n.rhsNonContracting by decide)]
  rfl
/-- The first contraction's right operand index has the contraction coordinate on axis 1. -/
theorem rhs1_1 (i : S512x20.Idx) (q : dot_S512x2048_S20x2048_S512x20_1_1_0_0_n_n.contr.Idx) :
    (dot_S512x2048_S20x2048_S512x20_1_1_0_0_n_n.rhsIdx i q 1).val = (q ⟨0, by decide⟩).val :=
  dot_S512x2048_S20x2048_S512x20_1_1_0_0_n_n.rhsIdx_val_of_single rfl i q

/-- The first contraction into the zero splat, at `(p, j)`: the inner product of the left operand's row `p` and the
    right operand's row `j`. -/
theorem matmul1_apply {φ₁ φ₂ : FTy} (lhs : FVec Ideal S512x2048 φ₁) (rhs : FVec Ideal S20x2048 φ₂) (p : Fin 512) (j : Fin 20) :
    FloatOps.matmul dot_S512x2048_S20x2048_S512x20_1_1_0_0_n_n none lhs rhs (constant S512x20 .f32 0x00000000#32) (ix2 p j)
      = ∑ k : Fin 2048, lhs (ix2 p k) * rhs (ix2 j k) := by
  rw [Ideal.matmul_constant_zero_apply, ← Equiv.sum_comp (ValueIdx.contrEquiv1 dot_S512x2048_S20x2048_S512x20_1_1_0_0_n_n 2048 rfl rfl).symm]
  refine Finset.sum_congr rfl fun k _ => ?_
  have hk := ValueIdx.contrEquiv1_symm_val dot_S512x2048_S20x2048_S512x20_1_1_0_0_n_n 2048 rfl rfl k
  have el : dot_S512x2048_S20x2048_S512x20_1_1_0_0_n_n.lhsIdx (ix2 p j) ((ValueIdx.contrEquiv1 dot_S512x2048_S20x2048_S512x20_1_1_0_0_n_n 2048 rfl rfl).symm k) = ix2 p k := funext fun a => Fin.ext (by
    match a with
    | ⟨0, _⟩ => exact lhs1_0 _ _
    | ⟨1, _⟩ => exact (lhs1_1 _ _).trans hk)
  have er : dot_S512x2048_S20x2048_S512x20_1_1_0_0_n_n.rhsIdx (ix2 p j) ((ValueIdx.contrEquiv1 dot_S512x2048_S20x2048_S512x20_1_1_0_0_n_n 2048 rfl rfl).symm k) = ix2 j k := funext fun a => Fin.ext (by
    match a with
    | ⟨0, _⟩ => exact rhs1_0 _ _
    | ⟨1, _⟩ => exact (rhs1_1 _ _).trans hk)
  rw [el, er]

/-- The second contraction's left operand index keeps the output's row on axis 0. -/
theorem lhs2_0 (i : S512x2048.Idx) (q : dot_S512x20_S20x2048_S512x2048_1_0_0_1_n_n.contr.Idx) :
    (dot_S512x20_S20x2048_S512x2048_1_0_0_1_n_n.lhsIdx i q 0).val = (i 0).val := by
  unfold DotDims.lhsIdx
  rw [dif_neg (show ¬(0 : Fin S512x20.rank) ∈ dot_S512x20_S20x2048_S512x2048_1_0_0_1_n_n.lhsBatch by decide), dif_pos (show (0 : Fin S512x20.rank) ∈ dot_S512x20_S20x2048_S512x2048_1_0_0_1_n_n.lhsNonContracting by decide)]
  rfl
/-- The second contraction's left operand index has the contraction coordinate on axis 1. -/
theorem lhs2_1 (i : S512x2048.Idx) (q : dot_S512x20_S20x2048_S512x2048_1_0_0_1_n_n.contr.Idx) :
    (dot_S512x20_S20x2048_S512x2048_1_0_0_1_n_n.lhsIdx i q 1).val = (q ⟨0, by decide⟩).val :=
  dot_S512x20_S20x2048_S512x2048_1_0_0_1_n_n.lhsIdx_val_of_single rfl i q
/-- The second contraction's right operand index has the contraction coordinate on axis 0. -/
theorem rhs2_0 (i : S512x2048.Idx) (q : dot_S512x20_S20x2048_S512x2048_1_0_0_1_n_n.contr.Idx) :
    (dot_S512x20_S20x2048_S512x2048_1_0_0_1_n_n.rhsIdx i q 0).val = (q ⟨0, by decide⟩).val :=
  dot_S512x20_S20x2048_S512x2048_1_0_0_1_n_n.rhsIdx_val_of_single rfl i q
/-- The second contraction's right operand index keeps the output's column on axis 1. -/
theorem rhs2_1 (i : S512x2048.Idx) (q : dot_S512x20_S20x2048_S512x2048_1_0_0_1_n_n.contr.Idx) :
    (dot_S512x20_S20x2048_S512x2048_1_0_0_1_n_n.rhsIdx i q 1).val = (i 1).val := by
  unfold DotDims.rhsIdx
  rw [dif_neg (show ¬(1 : Fin S20x2048.rank) ∈ dot_S512x20_S20x2048_S512x2048_1_0_0_1_n_n.rhsBatch by decide), dif_pos (show (1 : Fin S20x2048.rank) ∈ dot_S512x20_S20x2048_S512x2048_1_0_0_1_n_n.rhsNonContracting by decide)]
  rfl

/-- The second contraction into the zero splat, at `(p, q)`: the left operand's row `p` against the right
    operand's column `q`. -/
theorem matmul2_apply {φ₁ φ₂ : FTy} (lhs : FVec Ideal S512x20 φ₁) (rhs : FVec Ideal S20x2048 φ₂) (p : Fin 512) (q : Fin 2048) :
    FloatOps.matmul dot_S512x20_S20x2048_S512x2048_1_0_0_1_n_n none lhs rhs (constant S512x2048 .f32 0x00000000#32) (ix2 p q)
      = ∑ j : Fin 20, lhs (ix2 p j) * rhs (ix2 j q) := by
  rw [Ideal.matmul_constant_zero_apply, ← Equiv.sum_comp (ValueIdx.contrEquiv1 dot_S512x20_S20x2048_S512x2048_1_0_0_1_n_n 20 rfl rfl).symm]
  refine Finset.sum_congr rfl fun k _ => ?_
  have hk := ValueIdx.contrEquiv1_symm_val dot_S512x20_S20x2048_S512x2048_1_0_0_1_n_n 20 rfl rfl k
  have el : dot_S512x20_S20x2048_S512x2048_1_0_0_1_n_n.lhsIdx (ix2 p q) ((ValueIdx.contrEquiv1 dot_S512x20_S20x2048_S512x2048_1_0_0_1_n_n 20 rfl rfl).symm k) = ix2 p k := funext fun a => Fin.ext (by
    match a with
    | ⟨0, _⟩ => exact lhs2_0 _ _
    | ⟨1, _⟩ => exact (lhs2_1 _ _).trans hk)
  have er : dot_S512x20_S20x2048_S512x2048_1_0_0_1_n_n.rhsIdx (ix2 p q) ((ValueIdx.contrEquiv1 dot_S512x20_S20x2048_S512x2048_1_0_0_1_n_n 20 rfl rfl).symm k) = ix2 k q := funext fun a => Fin.ext (by
    match a with
    | ⟨0, _⟩ => exact (rhs2_0 _ _).trans hk
    | ⟨1, _⟩ => exact rhs2_1 _ _)
  rw [el, er]

/-! ## The kernel's blocks, read at an entry -/

/-- The kernel's logits block: the input block against the bank block, both contracted on their features. -/
def logitsB (x0 : FVec Ideal S512x2048 .f32) (x1 : FVec Ideal S20x2048 .bf16) : FVec Ideal S512x20 .f32 :=
  matmul dot_S512x2048_S20x2048_S512x20_1_1_0_0_n_n none (truncf .bf16 x0 bitsLt_bf16_f32)
    (shapeCast S20x2048 x1 shapeCasts_S20x2048_S20x2048) (constant S512x20 .f32 0x00000000#32)

/-- At `(p, j)` it is logit `j` of row `p`. -/
theorem logitsB_apply (x0 : FVec Ideal S512x2048 .f32) (x1 : FVec Ideal S20x2048 .bf16) (p : Fin 512) (j : Fin 20) :
    logitsB x0 x1 (ix2 p j) = Cert.MemUnit.logits (fun k => x0 (ix2 p k)) (fun j k => x1 (ix2 j k)) j := by
  unfold logitsB Cert.MemUnit.logits
  refine (matmul1_apply _ _ p j).trans (Finset.sum_congr rfl fun k _ => ?_)
  exact congrArg (x0 (ix2 p k) * ·) (congrFun (shapeCast_self x1 _) (ix2 j k))

/-- The first softmax of the logits, thresholded as one maximum. -/
def shrunkB (x0 : FVec Ideal S512x2048 .f32) (x1 : FVec Ideal S20x2048 .bf16) : FVec Ideal S512x20 .f32 :=
  maximumf (subf (smBlock (logitsB x0 x1)) (broadcast S512x20 (Scalar.ofBits (F := Ideal) .f32 0x3B23D70A#32)))
    (broadcast S512x20 (Scalar.ofBits (F := Ideal) .f32 0x00000000#32))

/-- At `(p, j)` it is the threshold of entry `j` of the softmax of row `p`'s logits. -/
theorem shrunkB_apply (x0 : FVec Ideal S512x2048 .f32) (x1 : FVec Ideal S20x2048 .bf16) (p : Fin 512) (j : Fin 20) :
    shrunkB x0 x1 (ix2 p j)
      = Cert.MemUnit.shrinkMax (Cert.MemUnit.smax (Cert.MemUnit.logits (fun k => x0 (ix2 p k)) (fun j k => x1 (ix2 j k))) j) := by
  show max (smBlock (logitsB x0 x1) (ix2 p j) - Ideal.ofBits .f32 0x3B23D70A#32) (Ideal.ofBits .f32 0x00000000#32) = _
  rw [smBlock_apply, Ideal.ofBits_zero_f32]
  have e : (fun j' => logitsB x0 x1 (ix2 p j')) = Cert.MemUnit.logits (fun k => x0 (ix2 p k)) (fun j k => x1 (ix2 j k)) :=
    funext fun j' => logitsB_apply x0 x1 p j'
  rw [e]
  rfl

/-- The attention weights: the softmax of the thresholded softmax. -/
def attB (x0 : FVec Ideal S512x2048 .f32) (x1 : FVec Ideal S20x2048 .bf16) : FVec Ideal S512x20 .f32 :=
  smBlock (shrunkB x0 x1)

/-- At `(p, j)` it is weight `j` of row `p`. -/
theorem attB_apply (x0 : FVec Ideal S512x2048 .f32) (x1 : FVec Ideal S20x2048 .bf16) (p : Fin 512) (j : Fin 20) :
    attB x0 x1 (ix2 p j)
      = Cert.MemUnit.att Cert.MemUnit.shrinkMax (fun k => x0 (ix2 p k)) (fun j k => x1 (ix2 j k)) j := by
  unfold attB Cert.MemUnit.att
  refine (smBlock_apply _ p j).trans ?_
  have e : (fun j' => shrunkB x0 x1 (ix2 p j'))
      = fun j' => Cert.MemUnit.shrinkMax (Cert.MemUnit.smax (Cert.MemUnit.logits (fun k => x0 (ix2 p k)) (fun j k => x1 (ix2 j k))) j') :=
    funext fun j' => shrunkB_apply x0 x1 p j'
  rw [e]

/-- The stored block is `tanh` of the weights against the bank block. -/
theorem pay_eq (x0 : FVec Ideal S512x2048 .f32) (x1 : FVec Ideal S20x2048 .bf16) :
    k0_pay1 (F := Ideal) x0 x1
      = tanh (matmul dot_S512x20_S20x2048_S512x2048_1_0_0_1_n_n none (truncf .bf16 (attB x0 x1) bitsLt_bf16_f32)
          (shapeCast S20x2048 x1 shapeCasts_S20x2048_S20x2048) (constant S512x2048 .f32 0x00000000#32)) := rfl

/-- Entry (p, q) of the stored block is the row function, with the threshold as one maximum, of row `p` of the input
    block and the bank block, at column `q`. -/
theorem pay_apply (x0 : FVec Ideal S512x2048 .f32) (x1 : FVec Ideal S20x2048 .bf16) (p : Fin 512) (q : Fin 2048) :
    k0_pay1 (F := Ideal) x0 x1 (ix2 p q)
      = Cert.MemUnit.rowOut Cert.MemUnit.shrinkMax (fun k => x0 (ix2 p k)) (fun j k => x1 (ix2 j k)) q := by
  rw [pay_eq]
  unfold Cert.MemUnit.rowOut
  refine congrArg Ideal.tanh ((matmul2_apply _ _ p q).trans (Finset.sum_congr rfl fun j _ => ?_))
  exact congrArg₂ (· * ·) (attB_apply x0 x1 p j) (congrFun (shapeCast_self x1 _) (ix2 j q))

end Cert.KernelIdeal.Row

end
-- ==== Proof.KernelArray.lean ====
/-
  From blocks to the array. The kernel runs on a grid of 64 points; point `t` reads rows `512 t … 512 t + 511` of the
  input and the whole bank, and writes the same rows of the result. Entry (p, q) of the block it writes is the row
  function of row `p` of its input block (KernelRow.lean), and that row is row `512 t + p` of the input array, so the block
  is the whole-array function `G` read through the block's rectangle; the 64 blocks tile the result, so the result array
  ends holding `G` of the input and of the bank as the region finds it — the bank narrowed to bf16 by the one host
  operation before the region, which on the extended reals is the bank itself.
-/
import proofs.«151482_j57990648430879_2_alg».proof.Proof.Gen.KernelIdeal.Value
import proofs.«151482_j57990648430879_2_alg».proof.Proof.KernelRow
import proofs.«151482_j57990648430879_2_alg».proof.Proof.RowSpec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The three index maps over the grid: the input's and the result's block row is the point, every block column is 0,
    and the bank's one block is block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The bank as the region finds it is the bank argument: the host's narrowing to bf16 is the identity on extended reals. -/
theorem V_bank (c : Dev nD) :
    (V m c main_v0 : S20x2048.Idx → EReal) = (m ((c : Thread nD τ).loc main_arg1) : S20x2048.Idx → EReal) := by
  dsimp only [Gen.V, Gen.hostOps0]; after_results; rfl

/-- Entry (p, k) of the input's block at point `t` is entry (512 t + p, k) of the input array. -/
theorem xblk_apply (c : Dev nD) (t : Fin cfg0.N) (p : Fin 512) (k : Fin 2048) (r : Fin 32768)
    (hr : r.val = t.val * 512 + p.val) :
    (iblk m c 0 t : Vec Ideal S512x2048 .f32) (ix2 p k) = (V m c main_arg0 : S32768x2048.Idx → EReal) (ix2 r k) := by
  obtain ⟨e0, e1, -⟩ := idx_facts t
  unfold iblk
  rw [View.read_apply]
  show (V m c main_arg0 : S32768x2048.Idx → EReal) _ = _
  refine congrArg (V m c main_arg0 : S32768x2048.Idx → EReal) (funext fun a => Fin.ext ?_)
  match a with
  | ⟨0, _⟩ => show win0_0.index t (0 : Fin 2) * 512 + 1 * p.val = r.val; rw [e0, hr]; omega
  | ⟨1, _⟩ => show win0_0.index t (1 : Fin 2) * 2048 + 1 * k.val = k.val; rw [e1]; omega

/-- The bank's block at every point is the whole bank as the region finds it. -/
theorem bblk_apply (c : Dev nD) (t : Fin cfg0.N) (j : Fin 20) (k : Fin 2048) :
    (iblk m c 1 t : Vec Ideal S20x2048 .bf16) (ix2 j k) = (V m c main_v0 : S20x2048.Idx → EReal) (ix2 j k) := by
  obtain ⟨-, -, e2, e3, -⟩ := idx_facts t
  unfold iblk
  rw [View.read_apply]
  show (V m c main_v0 : S20x2048.Idx → EReal) _ = _
  refine congrArg (V m c main_v0 : S20x2048.Idx → EReal) (funext fun a => Fin.ext ?_)
  match a with
  | ⟨0, _⟩ => show win0_1.index t (0 : Fin 2) * 20 + 1 * j.val = j.val; rw [e2]; omega
  | ⟨1, _⟩ => show win0_1.index t (1 : Fin 2) * 2048 + 1 * k.val = k.val; rw [e3]; omega

/-- One entry of the stored block against one entry of `G`: equal as soon as the block's row is the array's row, the
    two banks agree, and the columns agree. -/
theorem point_eq (X : Cert.MemUnit.XIdx → EReal) (Bk : Cert.MemUnit.BIdx → EReal)
    (xb : FVec Ideal S512x2048 .f32) (bb : FVec Ideal S20x2048 .bf16) (y : S512x2048.Idx) (i : S32768x2048.Idx)
    (hx : ∀ k : Fin 2048, xb (ix2 (⟨(y 0).val, idx2_lt0 y⟩ : Fin 512) k) = X (ix2 (⟨(i 0).val, idx2_lt0 i⟩ : Fin 32768) k))
    (hb : ∀ (j : Fin 20) (k : Fin 2048), bb (ix2 j k) = Bk (ix2 j k))
    (hq : (y 1).val = (i 1).val) :
    k0_pay1 (F := Ideal) xb bb y = Cert.MemUnit.G Cert.MemUnit.shrinkMax X Bk i := by
  have hy : y = ix2 (⟨(y 0).val, idx2_lt0 y⟩ : Fin 512) (⟨(y 1).val, idx2_lt1 y⟩ : Fin 2048) := by
    funext a; match a with | ⟨0, _⟩ => rfl | ⟨1, _⟩ => rfl
  refine (congrArg (k0_pay1 (F := Ideal) xb bb) hy).trans ?_
  refine (Cert.KernelIdeal.Row.pay_apply xb bb _ _).trans ?_
  unfold Cert.MemUnit.G
  have e1 : (fun k => xb (ix2 (⟨(y 0).val, idx2_lt0 y⟩ : Fin 512) k))
      = fun k => X (ix2 (⟨(i 0).val, idx2_lt0 i⟩ : Fin 32768) k) := funext hx
  have e2 : (fun (j : Fin 20) (k : Fin 2048) => bb (ix2 j k)) = fun j k => Bk (ix2 j k) :=
    funext fun j => funext fun k => hb j k
  have e3 : (⟨(y 1).val, idx2_lt1 y⟩ : Fin 2048) = ⟨(i 1).val, idx2_lt1 i⟩ := Fin.ext hq
  rw [e1, e2, e3]

/-- What point `t` writes back is block `t` of `G` of the two arrays as the region finds them. -/
theorem flushed_eq (c : Dev nD) (t : Fin cfg0.N) :
    (dats m 0 c).flushed 2 t = ((cfg0.win 2).blk t).view.read (Elt Ideal)
      (Cert.MemUnit.G Cert.MemUnit.shrinkMax (V m c main_arg0) (V m c main_v0)) := by
  rw [flushed2]
  unfold out0_2
  rw [View.canon_unit_zero hz]
  simp only [View.ld_unit_zero (S := S512x2048) hz, View.ld_unit_zero (S := S20x2048) hz]
  obtain ⟨e0, e1, e2, e3, e4, e5⟩ := idx_facts t
  funext y
  show k0_pay1 (F := Ideal) (iblk m c 0 t) (iblk m c 1 t) y
    = Cert.MemUnit.G Cert.MemUnit.shrinkMax (V m c main_arg0) (V m c main_v0) (((cfg0.win 2).blk t).view.emb y)
  refine point_eq (V m c main_arg0) (V m c main_v0) (iblk m c 0 t) (iblk m c 1 t) y _ (fun k => ?_) (fun j k => ?_) ?_
  · refine xblk_apply m c t _ k _ ?_
    show win0_2.index t (0 : Fin 2) * 512 + 1 * (y 0).val = t.val * 512 + (y 0).val
    rw [e4]; omega
  · exact bblk_apply m c t j k
  · show (y 1).val = win0_2.index t (1 : Fin 2) * 2048 + 1 * (y 1).val
    rw [e5]; omega

/-- An index of the result is in point `t`'s block iff each coordinate is in the block's range on its axis. -/
theorem mem_blk (t : Fin cfg0.N) (i : S32768x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v1).slice (win0_2.rect t)).set ↔ _
  rw [View.set_slice_whole, Rect.mem_set_unit]
  exact Iff.rfl

/-- The 64 blocks tile the result: row `r` lies in the block of point `r / 512`. -/
theorem cover (i : S32768x2048.Idx) :
    ∃ t : Fin cfg0.N, (cfg0.win 2).flush t = true ∧ i ∈ ((cfg0.win 2).blk t).view.set := by
  have hi0 : (i 0).val < 32768 := idx2_lt0 i
  have hi1 : (i 1).val < 2048 := idx2_lt1 i
  have hN : cfg0.N = 64 := N_0
  obtain ⟨t, ht⟩ : ∃ t : Fin cfg0.N, t.val = (i 0).val / 512 := ⟨⟨(i 0).val / 512, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    rw [e4, ht]; omega
  | ⟨1, _⟩ =>
    show win0_2.index t (1 : Fin 2) * 2048 ≤ (i 1).val ∧ (i 1).val < win0_2.index t (1 : Fin 2) * 2048 + 2048
    rw [e5]; omega

/-- The result array after the run is `G` of the two argument arrays. -/
theorem final (c : Dev nD) : (dats m 0 c).arrAt 2 cfg0.N
    = Cert.MemUnit.G Cert.MemUnit.shrinkMax (m ((c : Thread nD τ).loc main_arg0)) (m ((c : Thread nD τ).loc main_arg1)) := by
  refine ((dats m 0 c).arrAt_eq_of_cover 2
    (Cert.MemUnit.G Cert.MemUnit.shrinkMax (V m c main_arg0) (V m c main_v0)) (fun t _ => flushed_eq m c t) cover).trans ?_
  rw [V_main_arg0 m c, V_bank m c]

/-- The kernel's run, read: the result at `G` of the arguments, the arguments unchanged. -/
theorem run : θ_run defs (onTc (τ := τ) (main (F := Ideal))) ⟨m, fun _ => 0, ρ⟩ fun r => ∀ c : Dev nD,
      r.2.mem ((c : Thread nD τ).loc main_v1)
        = Cert.MemUnit.G Cert.MemUnit.shrinkMax (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Arr

end
-- ==== Proof.RefRow.lean ====
/-
  The reference's result, one operation at a time, is the whole-array function with the three-way threshold.
-/
import proofs.«151482_j57990648430879_2_alg».proof.Proof.Gen.ReferenceIdeal.Read
import proofs.«151482_j57990648430879_2_alg».proof.Proof.RowSpec
import Idealize.ShloMosaic.Lib.Pipeline.Value
import Idealize.ShloMosaic.Lib.ValueIdx
import Idealize.ShloMosaic.PureOps.Ideal.Laws

noncomputable section

open scoped BigOperators

namespace Cert.ReferenceIdeal.RefRow

open Idealize.ShloMosaic Idealize.ShloMosaic.ValueIdx Cert.ReferenceIdeal Cert.ReferenceIdeal.Read

/-- Row r of the first argument, as a function of the feature. -/
abbrev xrow (x0 : (⟨S32768x2048, .f32⟩ : BufTy).Contents (Elt Ideal)) (r : Fin 32768) : Fin 2048 → EReal :=
  fun k => x0 (ix2 r k)

/-- The bank, as a function of slot and feature. -/
abbrev bk (x1 : (⟨S20x2048, .f32⟩ : BufTy).Contents (Elt Ideal)) : Fin 20 → Fin 2048 → EReal :=
  fun j k => x1 (ix2 j k)

/-- The first contraction at (r, j) is the row's logit against slot j. -/
theorem v1_at (x0 : (⟨S32768x2048, .f32⟩ : BufTy).Contents (Elt Ideal)) (x1 : (⟨S20x2048, .f32⟩ : BufTy).Contents (Elt Ideal))
    (r : Fin 32768) (j : Fin 20) :
    val_main_v1 (F := Ideal) x0 x1 (ix2 r j) = Cert.MemUnit.logits (xrow x0 r) (bk x1) j := by
  rw [val_main_v1_apply]
  unfold Cert.MemUnit.logits
  refine Finset.sum_congr rfl fun k _ => ?_
  rw [val_main_v0_apply]
  have e1 : lidx_main_v1 (ix2 r j) k = ix2 r k := funext fun a => by
    match a with | ⟨0, _⟩ => rfl | ⟨1, _⟩ => rfl
  have e2 : idx_main_v0 (ridx_main_v1 (ix2 r j) k) = ix2 j k := funext fun a => by
    match a with | ⟨0, _⟩ => rfl | ⟨1, _⟩ => rfl
  rw [e1, e2]

/-- The f32 word of negative infinity reads as the bottom of the extended reals. -/
theorem ofBits_ninf : Ideal.ofBits .f32 0xFF800000#32 = (⊥ : EReal) := by simp [Ideal.ofBits, Ideal.ieee]

/-- The reduced index r with coordinate k put back on axis 1 is (r, k). -/
theorem lift_row (h : S32768x20.Reduces [1] S32768) (r : Fin 32768) (k : Fin (S32768x20.size 1)) :
    h.lift (ix1 r) k = ix2 r (⟨k.val, k.isLt⟩ : Fin 20) := by
  funext c; apply Fin.ext
  fin_cases c <;> rfl

/-- The maximum-reduce of a 32768 x 20 array from negative infinity is at row r the row maximum of that row. -/
theorem hostMax_at (y : S32768x20.Idx → EReal) (r : Fin 32768) :
    Host.reduce (FloatOps.maximumf (F := Ideal) (φ := .f32)) y (constant (F := Ideal) S_ .f32 0xFF800000#32)
        Cert.ReferenceIdeal.Gen.reducesTo_S32768x20_S32768_d1 Cert.ReferenceIdeal.Gen.h_S_ (ix1 r)
      = Cert.MemUnit.rowMax fun j => y (ix2 r j) := by
  have h : S32768x20.Reduces [1] S32768 := by decide
  refine (Host.reduce_eq_fold_single (FloatOps.maximumf (F := Ideal) (φ := .f32)) y _ Cert.ReferenceIdeal.Gen.reducesTo_S32768x20_S32768_d1 h Cert.ReferenceIdeal.Gen.h_S_ (ix1 r)).trans ?_
  unfold Cert.MemUnit.rowMax
  have hf : (y ∘ h.lift (ix1 r)) = fun k : Fin 20 => y (ix2 r k) := funext fun k => congrArg y (lift_row h r k)
  rw [hf]
  show Finset.fold max (Ideal.ofBits .f32 0xFF800000#32) _ _ = _
  rw [ofBits_ninf]
  rfl

/-- The first row maximum at row r is the maximum of the row's logits. -/
theorem v4_at (x0 : (⟨S32768x2048, .f32⟩ : BufTy).Contents (Elt Ideal)) (x1 : (⟨S20x2048, .f32⟩ : BufTy).Contents (Elt Ideal))
    (r : Fin 32768) :
    val_main_v4 (F := Ideal) x0 x1 (ix1 r) = Cert.MemUnit.rowMax (Cert.MemUnit.logits (xrow x0 r) (bk x1)) := by
  rw [val_main_v4_apply, val_main_v3_apply, val_main_cst_0_apply]
  have e := hostMax_at (val_main_v1 (F := Ideal) x0 x1) r
  rw [show val_main_v2 (F := Ideal) x0 x1 (ix1 r) = _ from e]
  rw [Ideal.ofBits_def, Ideal.maximumf_def, ofBits_ninf, max_eq_right bot_le]
  exact congrArg Cert.MemUnit.rowMax (funext fun j => v1_at x0 x1 r j)

/-- The shifted logit at (r, j). -/
theorem v7_at (x0 : (⟨S32768x2048, .f32⟩ : BufTy).Contents (Elt Ideal)) (x1 : (⟨S20x2048, .f32⟩ : BufTy).Contents (Elt Ideal))
    (r : Fin 32768) (j : Fin 20) :
    val_main_v7 (F := Ideal) x0 x1 (ix2 r j)
      = Cert.MemUnit.logits (xrow x0 r) (bk x1) j - Cert.MemUnit.rowMax (Cert.MemUnit.logits (xrow x0 r) (bk x1)) := by
  rw [val_main_v7_apply, val_main_v6_apply, val_main_v5_apply]
  have e : idx_main_v5 (idx_main_v6 (ix2 r j)) = ix1 r := funext fun a => by
    match a with | ⟨0, _⟩ => rfl
  rw [e, v1_at, v4_at, Ideal.subf_def]

/-- The exponential of the shifted logit at (r, j). -/
theorem v8_at (x0 : (⟨S32768x2048, .f32⟩ : BufTy).Contents (Elt Ideal)) (x1 : (⟨S20x2048, .f32⟩ : BufTy).Contents (Elt Ideal))
    (r : Fin 32768) (j : Fin 20) :
    val_main_v8 (F := Ideal) x0 x1 (ix2 r j)
      = Ideal.exp (Cert.MemUnit.logits (xrow x0 r) (bk x1) j - Cert.MemUnit.rowMax (Cert.MemUnit.logits (xrow x0 r) (bk x1))) := by
  rw [val_main_v8_apply, v7_at, Ideal.hostUnary_exp_def]

/-- The first softmax at (r, j). -/
theorem v12_at (x0 : (⟨S32768x2048, .f32⟩ : BufTy).Contents (Elt Ideal)) (x1 : (⟨S20x2048, .f32⟩ : BufTy).Contents (Elt Ideal))
    (r : Fin 32768) (j : Fin 20) :
    val_main_v12 (F := Ideal) x0 x1 (ix2 r j) = Cert.MemUnit.smax (Cert.MemUnit.logits (xrow x0 r) (bk x1)) j := by
  rw [val_main_v12_apply, val_main_v11_apply, val_main_v10_apply]
  have e : idx_main_v10 (idx_main_v11 (ix2 r j)) = ix1 r := funext fun a => by
    match a with | ⟨0, _⟩ => rfl
  rw [e, val_main_v9_apply, val_main_cst_1_apply, Ideal.ofBits_def, Ideal.ofBits_zero_f32, zero_add, v8_at, Ideal.hostDivf_def]
  unfold Cert.MemUnit.smax
  congr 1
  refine Finset.sum_congr rfl fun k _ => ?_
  have e2 : idx_main_v9 (ix1 r) k = ix2 r k := funext fun a => by
    match a with | ⟨0, _⟩ => rfl | ⟨1, _⟩ => rfl
  rw [e2, v8_at]

/-- The thresholded first softmax at (r, j): the three-way choice applied to the softmax entry. -/
theorem v22_at (x0 : (⟨S32768x2048, .f32⟩ : BufTy).Contents (Elt Ideal)) (x1 : (⟨S20x2048, .f32⟩ : BufTy).Contents (Elt Ideal))
    (r : Fin 32768) (j : Fin 20) :
    val_main_v22 (F := Ideal) x0 x1 (ix2 r j)
      = Cert.MemUnit.shrinkSel (Cert.MemUnit.smax (Cert.MemUnit.logits (xrow x0 r) (bk x1)) j) := by
  rw [val_main_v22_apply, val_main_v14_apply, val_main_v16_apply, val_main_v21_apply, val_main_v18_apply,
    val_main_v20_apply, val_main_call0_v0_apply, val_main_cst_6_apply, val_main_v13_apply, val_main_cst_2_apply,
    val_main_v15_apply, val_main_cst_3_apply, val_main_v17_apply, val_main_cst_4_apply, val_main_v19_apply,
    val_main_cst_5_apply, v12_at]
  simp only [Ideal.ofBits_def, Ideal.subf_def, Ideal.addf_def, Ideal.ofBits_zero_f32]
  rfl

/-- The thresholded first softmax of row r, as a 20-vector. -/
abbrev sv (x0 : (⟨S32768x2048, .f32⟩ : BufTy).Contents (Elt Ideal)) (x1 : (⟨S20x2048, .f32⟩ : BufTy).Contents (Elt Ideal))
    (r : Fin 32768) : Fin 20 → EReal :=
  fun j => Cert.MemUnit.shrinkSel (Cert.MemUnit.smax (Cert.MemUnit.logits (xrow x0 r) (bk x1)) j)

/-- The second row maximum at row r is the maximum of the thresholded softmax row. -/
theorem v25_at (x0 : (⟨S32768x2048, .f32⟩ : BufTy).Contents (Elt Ideal)) (x1 : (⟨S20x2048, .f32⟩ : BufTy).Contents (Elt Ideal))
    (r : Fin 32768) :
    val_main_v25 (F := Ideal) x0 x1 (ix1 r) = Cert.MemUnit.rowMax (sv x0 x1 r) := by
  rw [val_main_v25_apply, val_main_v24_apply, val_main_cst_8_apply]
  have e := hostMax_at (val_main_v22 (F := Ideal) x0 x1) r
  rw [show val_main_v23 (F := Ideal) x0 x1 (ix1 r) = _ from e]
  rw [Ideal.ofBits_def, Ideal.maximumf_def, ofBits_ninf, max_eq_right bot_le]
  exact congrArg Cert.MemUnit.rowMax (funext fun j => v22_at x0 x1 r j)

/-- The exponential of the shifted thresholded entry at (r, j). -/
theorem v29_at (x0 : (⟨S32768x2048, .f32⟩ : BufTy).Contents (Elt Ideal)) (x1 : (⟨S20x2048, .f32⟩ : BufTy).Contents (Elt Ideal))
    (r : Fin 32768) (j : Fin 20) :
    val_main_v29 (F := Ideal) x0 x1 (ix2 r j) = Ideal.exp (sv x0 x1 r j - Cert.MemUnit.rowMax (sv x0 x1 r)) := by
  rw [val_main_v29_apply, val_main_v28_apply, val_main_v27_apply, val_main_v26_apply]
  have e : idx_main_v26 (idx_main_v27 (ix2 r j)) = ix1 r := funext fun a => by
    match a with | ⟨0, _⟩ => rfl
  rw [e, v22_at, v25_at, Ideal.subf_def, Ideal.hostUnary_exp_def]

/-- The second softmax at (r, j) is the attention weight j of row r. -/
theorem v33_at (x0 : (⟨S32768x2048, .f32⟩ : BufTy).Contents (Elt Ideal)) (x1 : (⟨S20x2048, .f32⟩ : BufTy).Contents (Elt Ideal))
    (r : Fin 32768) (j : Fin 20) :
    val_main_v33 (F := Ideal) x0 x1 (ix2 r j) = Cert.MemUnit.att Cert.MemUnit.shrinkSel (xrow x0 r) (bk x1) j := by
  show _ = Cert.MemUnit.smax (sv x0 x1 r) j
  rw [val_main_v33_apply, val_main_v32_apply, val_main_v31_apply]
  have e : idx_main_v31 (idx_main_v32 (ix2 r j)) = ix1 r := funext fun a => by
    match a with | ⟨0, _⟩ => rfl
  rw [e, val_main_v30_apply, val_main_cst_9_apply, Ideal.ofBits_def, Ideal.ofBits_zero_f32, zero_add, v29_at, Ideal.hostDivf_def]
  unfold Cert.MemUnit.smax
  refine congrArg (Ideal.div _) ?_
  refine Finset.sum_congr rfl fun k _ => ?_
  have e2 : idx_main_v30 (ix1 r) k = ix2 r k := funext fun a => by
    match a with | ⟨0, _⟩ => rfl | ⟨1, _⟩ => rfl
  rw [e2, v29_at]

/-- The last stage of the reference is `G` with the three-way threshold, of the two arguments. -/
theorem ref_eq (x0 : (⟨S32768x2048, .f32⟩ : BufTy).Contents (Elt Ideal)) (x1 : (⟨S20x2048, .f32⟩ : BufTy).Contents (Elt Ideal)) :
    val_main_v35 (F := Ideal) x0 x1 = Cert.MemUnit.G Cert.MemUnit.shrinkSel x0 x1 := by
  funext i
  obtain ⟨r, c, rfl⟩ : ∃ (r : Fin 32768) (c : Fin 2048), i = ix2 r c := ⟨i 0, i 1, eq_ix2 i⟩
  rw [val_main_v35_apply, val_main_v34_apply, Ideal.hostUnary_tanh_def]
  unfold Cert.MemUnit.G Cert.MemUnit.rowOut
  refine congrArg Ideal.tanh ?_
  refine Finset.sum_congr rfl fun k _ => ?_
  have e1 : lidx_main_v34 (ix2 r c) k = ix2 r k := funext fun a => by
    match a with | ⟨0, _⟩ => rfl | ⟨1, _⟩ => rfl
  have e2 : ridx_main_v34 (ix2 r c) k = ix2 k c := funext fun a => by
    match a with | ⟨0, _⟩ => rfl | ⟨1, _⟩ => rfl
  rw [e1, e2, v33_at]

end Cert.ReferenceIdeal.RefRow

end
-- ==== Proof.lean ====
/-
  The memory unit: a kernel that, for an input `x : f32[32768, 2048]` and a bank `f32[20, 2048]`, writes

      tanh ( softmax ( shrink ( softmax ( x · bankᵀ ) ) ) · bank ),

  against the same expression in plain array operations, on the extended reals.

  The two programs differ in how they spell the soft threshold at λ = f32(0.0025). The reference writes the three-way
  choice "a − λ above λ, a + λ below −λ, else 0"; the kernel, knowing its operand is a softmax and so never negative,
  writes `max (a − λ) 0`. On the extended reals the two agree at every `a ≥ 0`; they differ at `a = ⊥`, the junk value
  of `0 / 0`, which a softmax of an all-infinite row would produce. The precondition (every input entry finite) keeps
  every logit a real number, hence every first softmax entry a non-negative real, and there the two spellings are one
  function (RowMath.lean). Apart from that the programs are the same row function (RowSpec.lean): the kernel's casts to
  bf16 are the identity, its two matrix products and its lane reductions are the reference's sums, and its 64 row blocks
  tile the result (KernelRow.lean, KernelArray.lean; the reference one operation at a time in RefRow.lean; the
  precondition read in Finite.lean).

  The three frames are the generated ones; the ideal pass rewrote nothing, so there is nothing to preserve.
-/
import proofs.«151482_j57990648430879_2_alg».proof.Defs
import proofs.«151482_j57990648430879_2_alg».proof.Proof.Gen.Kernel
import proofs.«151482_j57990648430879_2_alg».proof.Proof.Gen.Kernel.Frame
import proofs.«151482_j57990648430879_2_alg».proof.Proof.Gen.KernelIdeal
import proofs.«151482_j57990648430879_2_alg».proof.Proof.Gen.KernelIdeal.Frame
import proofs.«151482_j57990648430879_2_alg».proof.Proof.Gen.KernelIdeal.Value
import proofs.«151482_j57990648430879_2_alg».proof.Proof.Gen.ReferenceIdeal
import proofs.«151482_j57990648430879_2_alg».proof.Proof.Gen.ReferenceIdeal.Run
import proofs.«151482_j57990648430879_2_alg».proof.Proof.Gen.ReferenceIdeal.Read
import proofs.«151482_j57990648430879_2_alg».proof.Proof.Gen.Pre_finite_inputs
import proofs.«151482_j57990648430879_2_alg».proof.Proof.RowSpec
import proofs.«151482_j57990648430879_2_alg».proof.Proof.RowMath
import proofs.«151482_j57990648430879_2_alg».proof.Proof.Finite
import proofs.«151482_j57990648430879_2_alg».proof.Proof.KernelRow
import proofs.«151482_j57990648430879_2_alg».proof.Proof.KernelArray
import proofs.«151482_j57990648430879_2_alg».proof.Proof.RefRow
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From finite inputs both programs end with the result at `G` with the threshold as one maximum: the kernel by its
    blocks, the reference by its operations and the agreement of the two thresholds on a softmax of real logits. -/
theorem algebraic : Cert.algebraic_KernelIdeal_ReferenceIdeal := by
  intro m ρ m' ρ' hpre hagree
  refine ⟨fun c => Cert.MemUnit.G Cert.MemUnit.shrinkMax
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefRow.ref_eq, (hagree c).1, (hagree c).2]
  obtain ⟨hx, hb⟩ := Cert.Pre_finite_inputs.Finite.real_of_pre _ _ (hpre c)
  exact Cert.MemUnit.G_shrink _ _ hx hb

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
